-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S8 : Shape := ⟨1, ![8]⟩
abbrev S8x2048x1408 : Shape := ⟨3, ![8, 2048, 1408]⟩
abbrev S8x1408x2048 : Shape := ⟨3, ![8, 1408, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn_part1 {F : FTy → Type} [FloatOps F] (main_v13 : IVec S_ 1) (main_v16 : IVec S8x1408x2048 1) : IVec S_ 1 :=
  let main_c_5 : IVec S_ 1 := constantI S_ 1 1#1
  let main_v17 : IVec S_ 1 := (fun x v => Host.reduce IntOp.andi x v reducesTo_S8x1408x2048_S_d0_1_2 h_S_) main_v16 main_c_5
  let main_v18 : IVec S_ 1 := andi main_v13 main_v17
  main_v18

def fn {F : FTy → Type} [FloatOps F] (main_arg0 : FVec F S32768x2048 .f32) (main_arg1 : IVec S8 32) (main_arg2 : FVec F S8x2048x1408 .f32) (main_arg3 : FVec F S8x2048x1408 .f32) (main_arg4 : FVec F S8x1408x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S8x2048x1408 .f32 := Host.absf main_arg2
  let main_cst_0 : FVec F S_ .f32 := constant S_ .f32 0x7F800000#32
  let main_v5 : FVec F S8x2048x1408 .f32 := broadcastInDim S8x2048x1408 ![] bcast_S_S8x2048x1408 main_cst_0
  let main_v6 : IVec S8x2048x1408 1 := cmpf .olt main_v4 main_v5
  let main_c_1 : IVec S_ 1 := constantI S_ 1 1#1
  let main_v7 : IVec S_ 1 := (fun x v => Host.reduce IntOp.andi x v reducesTo_S8x2048x1408_S_d0_1_2 h_S_) main_v6 main_c_1
  let main_v8 : IVec S_ 1 := andi main_v3 main_v7
  let main_v9 : FVec F S8x2048x1408 .f32 := Host.absf main_arg3
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  let main_v14 : FVec F S8x1408x2048 .f32 := Host.absf main_arg4
  let main_cst_4 : FVec F S_ .f32 := constant S_ .f32 0x7F800000#32
  let main_v15 : FVec F S8x1408x2048 .f32 := broadcastInDim S8x1408x2048 ![] bcast_S_S8x1408x2048 main_cst_4
  let main_v16 : IVec S8x1408x2048 1 := cmpf .olt main_v14 main_v15
  fn_part1 (F := F) main_v13 main_v16
-- ==== Kernel.lean ====
abbrev S32768x2048 : Shape := ⟨2, ![32768, 2048]⟩
abbrev S8 : Shape := ⟨1, ![8]⟩
abbrev S8x2048x1408 : Shape := ⟨3, ![8, 2048, 1408]⟩
abbrev S8x1408x2048 : Shape := ⟨3, ![8, 1408, 2048]⟩
abbrev S8x4096x2048 : Shape := ⟨3, ![8, 4096, 2048]⟩
abbrev S1x512x2048 : Shape := ⟨3, ![1, 512, 2048]⟩
abbrev S1x2048x128 : Shape := ⟨3, ![1, 2048, 128]⟩
abbrev S1x128x2048 : Shape := ⟨3, ![1, 128, 2048]⟩
abbrev S512x2048 : Shape := ⟨2, ![512, 2048]⟩
abbrev S2048x128 : Shape := ⟨2, ![2048, 128]⟩
abbrev S512x128 : Shape := ⟨2, ![512, 128]⟩
abbrev S128x2048 : Shape := ⟨2, ![128, 2048]⟩

abbrev nBuf : Space → Nat
  | .hbm => 8
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S8, .i32⟩
  | .hbm, ⟨2, _⟩ => ⟨S8x2048x1408, .f32⟩
  | .hbm, ⟨3, _⟩ => ⟨S8x2048x1408, .f32⟩
  | .hbm, ⟨4, _⟩ => ⟨S8x1408x2048, .f32⟩
  | .hbm, ⟨5, _⟩ => ⟨S8x4096x2048, .f32⟩
  | .hbm, ⟨6, _⟩ => ⟨S8x4096x2048, .f32⟩
  | .hbm, ⟨7, _⟩ => ⟨S32768x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x128x2048, .f32⟩
  | .local _ .vmem, ⟨7, _⟩ => ⟨S1x128x2048, .f32⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 11], ![false, false, false]⟩

def k0_cond2 (i : grid0.Coords) : BitVec 1 :=
  let arg2 : BitVec 32 := BitVec.ofNat 32 (i 2).val
  let c10_i32 : BitVec 32 := 10#32
  let v27 : BitVec 1 := Scalar.cmpi .eq arg2 c10_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S32768x2048_S8x4096x2048 : S32768x2048.ShapeCasts S8x4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S512x2048_S1x512x2048 : S512x2048.ShapeCasts S1x512x2048
  shapeCasts_S8x4096x2048_S32768x2048 : S8x4096x2048.ShapeCasts S32768x2048
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x1408.size a
  hwx0_1 : ∀ i : grid0.Coords, EltTy.bits .f32 = 32 ∨ (Rect.block (s := S8x2048x1408) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x1408.size a
  hwx0_2 : ∀ i : grid0.Coords, EltTy.bits .f32 = 32 ∨ (Rect.block (s := S8x2048x1408) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x1408x2048.size a
  hwx0_3 : ∀ i : grid0.Coords, EltTy.bits .f32 = 32 ∨ (Rect.block (s := S8x1408x2048) S1x128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x4096x2048.size a
  hwx0_4 : ∀ i : grid0.Coords, EltTy.bits .f32 = 32 ∨ (Rect.block (s := S8x4096x2048) S1x512x2048.size (cc0_transform_4 i) (hinb0_4 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x2048 : Shape := ⟨2, ![32768, 2048]⟩
abbrev S8 : Shape := ⟨1, ![8]⟩
abbrev S8x2048x1408 : Shape := ⟨3, ![8, 2048, 1408]⟩
abbrev S8x1408x2048 : Shape := ⟨3, ![8, 1408, 2048]⟩
abbrev S8x4096x2048 : Shape := ⟨3, ![8, 4096, 2048]⟩
abbrev S8x4096x1408 : Shape := ⟨3, ![8, 4096, 1408]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8, .i32⟩
  | .hbm, ⟨2, _⟩ => ⟨S8x2048x1408, .f32⟩
  | .hbm, ⟨3, _⟩ => ⟨S8x2048x1408, .f32⟩
  | .hbm, ⟨4, _⟩ => ⟨S8x1408x2048, .f32⟩
  | .hbm, ⟨5, _⟩ => ⟨S8x4096x2048, .f32⟩
  | .hbm, ⟨6, _⟩ => ⟨S8x4096x1408, .f32⟩
  | .hbm, ⟨7, _⟩ => ⟨S8x4096x1408, .f32⟩
  | .hbm, ⟨8, _⟩ => ⟨S8x4096x1408, .f32⟩
  | .hbm, ⟨9, _⟩ => ⟨S_, .f32⟩
  | .hbm, ⟨10, _⟩ => ⟨S8x4096x1408, .f32⟩
  | .hbm, ⟨11, _⟩ => ⟨S8x4096x1408, .f32⟩
  | .hbm, ⟨12, _⟩ => ⟨S_, .f32⟩
  | .hbm, ⟨13, _⟩ => ⟨S8x4096x1408, .f32⟩
  | .hbm, ⟨14, _⟩ => ⟨S8x4096x1408, .f32⟩
  | .hbm, ⟨15, _⟩ => ⟨S8x4096x1408, .f32⟩
  | .hbm, ⟨16, _⟩ => ⟨S8x4096x1408, .f32⟩
  | .hbm, ⟨17, _⟩ => ⟨S8x4096x1408, .f32⟩
  | .hbm, ⟨18, _⟩ => ⟨S8x4096x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S32768x2048_S8x4096x2048 : S32768x2048.ShapeCasts S8x4096x2048
  bcast_S_S8x4096x1408 : S_.BroadcastsInDim S8x4096x1408 (![] : Fin 0 → Fin S8x4096x1408.rank)
  shapeCasts_S8x4096x2048_S32768x2048 : S8x4096x2048.ShapeCasts S32768x2048
  dot_S8x4096x2048_S8x2048x1408_S8x4096x1408_2_1_1_2_0_0_wf : DotDims.WF S8x4096x2048 S8x2048x1408 S8x4096x1408 [2] [1] [1] [2] [0] [0]
  dot_S8x4096x1408_S8x1408x2048_S8x4096x2048_2_1_1_2_0_0_wf : DotDims.WF S8x4096x1408 S8x1408x2048 S8x4096x2048 [2] [1] [1] [2] [0] [0]

variable [Facts₀]

def dot_S8x4096x2048_S8x2048x1408_S8x4096x1408_2_1_1_2_0_0 : DotDims S8x4096x2048 S8x2048x1408 S8x4096x1408 where
  lhsContracting := [2]
  rhsContracting := [1]
  lhsNonContracting := [1]
  rhsNonContracting := [2]
  lhsBatch := [0]
  rhsBatch := [0]
  wf := dot_S8x4096x2048_S8x2048x1408_S8x4096x1408_2_1_1_2_0_0_wf
def dot_S8x4096x1408_S8x1408x2048_S8x4096x2048_2_1_1_2_0_0 : DotDims S8x4096x1408 S8x1408x2048 S8x4096x2048 where
  lhsContracting := [2]
  rhsContracting := [1]
  lhsNonContracting := [1]
  rhsNonContracting := [2]
  lhsBatch := [0]
  rhsBatch := [0]
  wf := dot_S8x4096x1408_S8x1408x2048_S8x4096x2048_2_1_1_2_0_0_wf

class Facts : Prop extends Facts₀ where

variable [Facts]
-- ==== Proof.Spec.lean ====
/-
  The grouped SwiGLU feed-forward as one function on the extended reals.

  Eight experts, 4096 tokens each, model width 2048, hidden width 1408. For expert `e`, token `t` and hidden unit `k`
  the gate and up projections are `∑ j, x[e,t,j] · w[e,j,k]`; the hidden activation is `swish(gate) · up` with
  `swish g = g · 1/(1 + exp(-g))`; the result at output channel `d` is `∑ k, hidden[e,t,k] · wdown[e,k,d]`.

  The hidden axis splits into 11 tiles of 128 units. Addition of extended reals is commutative and associative, so the
  sum over the 1408 hidden units is the sum over the tiles of each tile's sum (`outAt_eq_sum_tiles`): no finiteness of the
  inputs is needed for it.
-/
import Idealize.ShloMosaic.PureOps.Ideal
import Idealize.ShloMosaic.Lib.ValueIdx
import Mathlib.Algebra.BigOperators.Fin

noncomputable section

open scoped BigOperators

namespace Cert.GroupedSwiGLU

open Idealize.ShloMosaic Idealize.ShloMosaic.ValueIdx

/-- Tokens grouped by expert. -/
abbrev Tok : Shape := ⟨3, ![8, 4096, 2048]⟩
/-- Gate and up weights. -/
abbrev WIn : Shape := ⟨3, ![8, 2048, 1408]⟩
/-- Down weights. -/
abbrev WOut : Shape := ⟨3, ![8, 1408, 2048]⟩

/-- `g · σ(g)`, the logistic `σ` extended to the infinities as the ideal instance does. -/
def swish (g : EReal) : EReal := g * Ideal.logistic g

/-- The logistic function is `1 / (1 + exp(-g))`, with the number one written as its binary32 word. -/
theorem ofBits_one : Ideal.ofBits .f32 0x3F800000#32 = 1 := by
  simp [Ideal.ofBits, Ideal.ieee, -EReal.coe_mul]; norm_num

theorem swish_eq (g : EReal) :
    g * Ideal.div (Ideal.ofBits .f32 0x3F800000#32) (Ideal.ofBits .f32 0x3F800000#32 + Ideal.exp (-g)) = swish g := by
  rw [ofBits_one]; rfl

/-- Token `(e, t)` projected on hidden unit `k` by the weights `w`. -/
def proj (xe : Tok.Idx → EReal) (w : WIn.Idx → EReal) (e : Fin 8) (t : Fin 4096) (k : Fin 1408) : EReal :=
  ∑ j : Fin 2048, xe (ix3 e t j) * w (ix3 e j k)

/-- The hidden activation of token `(e, t)` at unit `k`. -/
def hiddenAct (xe : Tok.Idx → EReal) (wg wu : WIn.Idx → EReal) (e : Fin 8) (t : Fin 4096) (k : Fin 1408) : EReal :=
  swish (proj xe wg e t k) * proj xe wu e t k

/-- The result at token `(e, t)`, channel `d`. -/
def outAt (xe : Tok.Idx → EReal) (wg wu : WIn.Idx → EReal) (wd : WOut.Idx → EReal) (e : Fin 8) (t : Fin 4096)
    (d : Fin 2048) : EReal :=
  ∑ k : Fin 1408, hiddenAct xe wg wu e t k * wd (ix3 e k d)

/-- The result as an array over `[8, 4096, 2048]`. -/
def out (xe : Tok.Idx → EReal) (wg wu : WIn.Idx → EReal) (wd : WOut.Idx → EReal) : Tok.Idx → EReal :=
  fun i => outAt xe wg wu wd (i 0) (i 1) (i 2)

/-- Hidden unit `k` of tile `h`. -/
def hidIx (h : Fin 11) (k : Fin 128) : Fin 1408 := ⟨h.val * 128 + k.val, by omega⟩

/-- Row `r` of token tile `q`. -/
def rowIx (q : Fin 8) (r : Fin 512) : Fin 4096 := ⟨q.val * 512 + r.val, by omega⟩

/-- A sum over the hidden units, tile by tile. -/
theorem sum_tiles {M : Type*} [AddCommMonoid M] (f : Fin 1408 → M) :
    ∑ k : Fin 1408, f k = ∑ h : Fin 11, ∑ k : Fin 128, f (hidIx h k) := by
  rw [← Fintype.sum_prod_type']
  refine (Fintype.sum_equiv (finProdFinEquiv (m := 11) (n := 128)) _ _ ?_).symm
  rintro ⟨h, k⟩
  refine congrArg f (Fin.ext ?_)
  show h.val * 128 + k.val = k.val + 128 * h.val
  omega

/-- One hidden tile's share of the result. -/
def tile (xe : Tok.Idx → EReal) (wg wu : WIn.Idx → EReal) (wd : WOut.Idx → EReal) (e : Fin 8) (t : Fin 4096)
    (h : Fin 11) (d : Fin 2048) : EReal :=
  ∑ k : Fin 128, hiddenAct xe wg wu e t (hidIx h k) * wd (ix3 e (hidIx h k) d)

/-- The result is the sum of the eleven tiles' shares. -/
theorem outAt_eq_sum_tiles (xe : Tok.Idx → EReal) (wg wu : WIn.Idx → EReal) (wd : WOut.Idx → EReal) (e : Fin 8)
    (t : Fin 4096) (d : Fin 2048) :
    outAt xe wg wu wd e t d = ∑ h : Fin 11, tile xe wg wu wd e t h d := by
  unfold outAt tile
  exact sum_tiles _

end Cert.GroupedSwiGLU

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Payload.lean ====
/-
  What one grid point's body computes, read at an index of its 512 × 2048 accumulator tile.

  At the ideal instance a change of float format is the identity and a matrix product into a zero accumulator is the
  plain sum of products over the contracted axis. So the stored tile is, at row `r` and channel `d`,
  `acc[r,d] + ∑ k < 128, swish(∑ j, x[r,j]·wg[j,k]) · (∑ j, x[r,j]·wu[j,k]) · wd[k,d]`,
  each input block carrying a leading unit axis that the body casts away.
-/
import proofs.«146920_j5669356830747_1_alg».proof.Proof.Gen.KernelIdeal.Skeleton
import proofs.«146920_j5669356830747_1_alg».proof.Proof.Spec
import proofs.«146920_j5669356830747_1_alg».proof.Proof.LibContraction
import Idealize.ShloMosaic.PureOps.Ideal.Laws
import Idealize.ShloMosaic.Lib.Pipeline.Value
import Idealize.ShloMosaic.Lib.ValueIdx

noncomputable section

open scoped BigOperators

namespace Cert.KernelIdeal.Payload

open Idealize.ShloMosaic Idealize.ShloMosaic.ValueIdx Cert.KernelIdeal Cert.KernelIdeal.Gen Cert.GroupedSwiGLU
open Cert.Lib.Contraction

/-- A rows-by-columns product into the zero accumulator, read at `(r, c)`: the sum over the shared axis. -/
theorem matmul_zero_apply {M K N : ℕ} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂)
    (r : Fin M) (c : Fin N) :
    matmul D prec lhs rhs (constant (F := Ideal) ⟨2, ![M, N]⟩ .f32 0x00000000#32) (ix2 r c)
      = ∑ k : Fin K, lhs (ix2 r k) * rhs (ix2 k c) := by
  refine (Ideal.matmul_constant_zero_apply D prec lhs rhs (ix2 r c)).trans ?_
  refine (sum_contr D hlc K rfl _).trans ?_
  refine Finset.sum_congr rfl fun k _ => ?_
  have el : D.lhsIdx (ix2 r c) ((contrFin D hlc K rfl).symm k) = ix2 r k := funext fun a => Fin.ext (by
    match a with
    | ⟨0, _⟩ => exact lhs_free D hlb hln (ix2 r c) _ (show 0 < 2 by decide)
    | ⟨1, _⟩ => exact lhs_contracted D hlc K rfl (ix2 r c) k)
  have er : D.rhsIdx (ix2 r c) ((contrFin D hlc K rfl).symm k) = ix2 k c := funext fun a => Fin.ext (by
    match a with
    | ⟨0, _⟩ => exact rhs_contracted D hlc hrc K rfl (ix2 r c) k
    | ⟨1, _⟩ => exact rhs_free D hlb hrb hln hrn (ix2 r c) _ (show 1 < 2 by decide))
  rw [el, er]

/-- A block `[1, A, B]` with its unit axis cast away, read at `(a, b)`. -/
theorem dropUnit_apply {A B : ℕ} {α : Type} (x : (⟨3, ![1, A, B]⟩ : Shape).Idx → α)
    (h : (⟨3, ![1, A, B]⟩ : Shape).ShapeCasts ⟨2, ![A, B]⟩) (a : Fin A) (b : Fin B) :
    shapeCast ⟨2, ![A, B]⟩ x h (ix2 a b) = x (ix3 0 a b) := by
  refine (shapeCast_dropUnit_apply ![A, B] x h (ix2 a b)).trans (congrArg x ?_)
  funext i
  match i with
  | ⟨0, _⟩ => rfl
  | ⟨1, _⟩ => rfl
  | ⟨2, _⟩ => rfl

/-- A tile `[A, B]` given a leading unit axis, read at `(0, a, b)`. -/
theorem addUnit_apply {A B : ℕ} {α : Type} (x : (⟨2, ![A, B]⟩ : Shape).Idx → α)
    (h : (⟨2, ![A, B]⟩ : Shape).ShapeCasts ⟨3, ![1, A, B]⟩) (z : Fin 1) (a : Fin A) (b : Fin B) :
    shapeCast ⟨3, ![1, A, B]⟩ x h (ix3 z a b) = x (ix2 a b) := by
  refine (shapeCast_addUnit_apply ![A, B] x h (ix3 z a b)).trans (congrArg x ?_)
  funext i
  match i with
  | ⟨0, _⟩ => rfl
  | ⟨1, _⟩ => rfl

/-- The hidden activation as the body forms it: the gate times its logistic, times the up projection, then narrowed
    (the narrowing is the identity here). -/
theorem act_apply {s : Shape} (G U : FVec Ideal s .f32) (h : FTy.bits .bf16 < FTy.bits .f32) (i : s.Idx) :
    truncf .bf16 (mulf (mulf G (logistic G)) U) h i = swish (G i) * U i := rfl

/-- A narrowed, unit-axis-free input block read at `(a, b)`. -/
theorem narrowed_apply {A B : ℕ} (x : (⟨3, ![1, A, B]⟩ : Shape).Idx → EReal)
    (h : (⟨3, ![1, A, B]⟩ : Shape).ShapeCasts ⟨2, ![A, B]⟩) (h' : FTy.bits .bf16 < FTy.bits .f32) (a : Fin A) (b : Fin B) :
    truncf (F := Ideal) (φ := .f32) .bf16 (shapeCast ⟨2, ![A, B]⟩ x h) h' (ix2 a b) = x (ix3 0 a b) :=
  dropUnit_apply x h a b

/-- The reset value of the accumulator tile is zero everywhere. -/
theorem pay1_apply (i : S512x2048.Idx) : k0_pay1 (F := Ideal) i = 0 := by
  unfold k0_pay1
  refine (congrFun (shapeCast_self _ _) i).trans ?_
  exact Ideal.ofBits_zero_f32

/-- The accumulator tile after one point, at row `r` and channel `d`. -/
theorem pay2_apply (x0 : Vec Ideal S1x512x2048 .f32) (x1 x2 : Vec Ideal S1x2048x128 .f32)
    (x3 : Vec Ideal S1x128x2048 .f32) (acc : Vec Ideal S512x2048 .f32) (r : Fin 512) (d : Fin 2048) :
    k0_pay2 (F := Ideal) x0 x1 x2 x3 acc (ix2 r d)
      = acc (ix2 r d) + ∑ k : Fin 128,
          (swish (∑ j : Fin 2048, x0 (ix3 0 r j) * x1 (ix3 0 j k)) * (∑ j : Fin 2048, x0 (ix3 0 r j) * x2 (ix3 0 j k)))
            * x3 (ix3 0 k d) := by
  unfold k0_pay2
  refine (congrFun (shapeCast_self _ _) (ix2 r d)).trans ?_
  refine (addf_apply _ _ _).trans (congrArg (acc (ix2 r d) + ·) ?_)
  refine (matmul_zero_apply dot_S512x128_S128x2048_S512x2048_1_0_0_1_n_n rfl rfl rfl rfl rfl rfl none _ _ r d).trans ?_
  refine Finset.sum_congr rfl fun k _ => ?_
  refine congrArg₂ (· * ·) ?_ (narrowed_apply x3 _ _ k d)
  refine (act_apply _ _ _ (ix2 r k)).trans ?_
  refine congrArg₂ (fun a b => swish a * b) ?_ ?_
  · refine (matmul_zero_apply dot_S512x2048_S2048x128_S512x128_1_0_0_1_n_n rfl rfl rfl rfl rfl rfl none _ _ r k).trans ?_
    exact Finset.sum_congr rfl fun j _ => congrArg₂ (· * ·) (narrowed_apply x0 _ _ r j) (narrowed_apply x1 _ _ j k)
  · refine (matmul_zero_apply dot_S512x2048_S2048x128_S512x128_1_0_0_1_n_n rfl rfl rfl rfl rfl rfl none _ _ r k).trans ?_
    exact Finset.sum_congr rfl fun j _ => congrArg₂ (· * ·) (narrowed_apply x0 _ _ r j) (narrowed_apply x2 _ _ j k)

/-- The output block is the accumulator tile with a leading unit axis. -/
theorem pay3_apply (acc : Vec Ideal S512x2048 .f32) (z : Fin 1) (r : Fin 512) (d : Fin 2048) :
    k0_pay3 (F := Ideal) acc (ix3 z r d) = acc (ix2 r d) := by
  unfold k0_pay3
  exact addUnit_apply acc _ z r d

end Cert.KernelIdeal.Payload

end
-- ==== Proof.Blocks.lean ====
/-
  The blocks a grid point works on, read through to the arrays.

  The grid is 8 experts × 8 token tiles × 11 hidden tiles, hidden tile fastest: point `n` is expert `n / 88`, token tile
  `n / 11 % 8`, hidden tile `n % 11`. The token block is rows `512·q … 512·q + 511` of expert `e`; the gate and up
  blocks are hidden columns `128·h … 128·h + 127` of expert `e`'s weights, the down block the same hidden rows. With the
  blocks read through, one point's update of the accumulator tile is "add hidden tile `h`'s share of the result".
-/
import proofs.«146920_j5669356830747_1_alg».proof.Proof.Gen.KernelIdeal.Frame
import proofs.«146920_j5669356830747_1_alg».proof.Proof.Spec
import proofs.«146920_j5669356830747_1_alg».proof.Proof.Payload

set_option maxRecDepth 16384

noncomputable section

open scoped BigOperators

namespace Cert.KernelIdeal.Tiles

open Idealize.ShloMosaic Idealize.ShloMosaic.TcCoe Idealize.ShloMosaic.ValueIdx
open Idealize.SL Idealize.SL.Sem
open Cert.KernelIdeal Cert.KernelIdeal.Gen Cert.GroupedSwiGLU

variable (m : (ℓ : Loc nD τ sig) → Buf (Elt Ideal) ℓ)

/-- The arrays as the kernel region finds them: the tokens grouped by expert, and the three weights. -/
abbrev xarr (c : Dev nD) : Vec Ideal S8x4096x2048 .f32 := V m c main_v0
abbrev garr (c : Dev nD) : Vec Ideal S8x2048x1408 .f32 := V m c main_arg2
abbrev uarr (c : Dev nD) : Vec Ideal S8x2048x1408 .f32 := V m c main_arg3
abbrev darr (c : Dev nD) : Vec Ideal S8x1408x2048 .f32 := V m c main_arg4

/-- The four input blocks at a point. -/
abbrev xblk (c : Dev nD) (t : Fin cfg0.N) : Vec Ideal S1x512x2048 .f32 := iblk m c 0 t
abbrev gblk (c : Dev nD) (t : Fin cfg0.N) : Vec Ideal S1x2048x128 .f32 := iblk m c 1 t
abbrev ublk (c : Dev nD) (t : Fin cfg0.N) : Vec Ideal S1x2048x128 .f32 := iblk m c 2 t
abbrev dblk (c : Dev nD) (t : Fin cfg0.N) : Vec Ideal S1x128x2048 .f32 := iblk m c 3 t

theorem lt704 (t : Fin cfg0.N) : t.val < 704 := lt_of_lt_of_eq t.isLt (show cfg0.N = 704 from N_0)

/-- A point's expert, token tile and hidden tile. -/
def pe (t : Fin cfg0.N) : Fin 8 := ⟨t.val / 88, by have := lt704 t; omega⟩
def pq (t : Fin cfg0.N) : Fin 8 := ⟨t.val / 11 % 8, by omega⟩
def ph (t : Fin cfg0.N) : Fin 11 := ⟨t.val % 11, by omega⟩

/-- The windows' block indices at every point, decided over the grid. -/
theorem idx_facts : ∀ t : Fin cfg0.N,
    win0_0.index t (0 : Fin 3) = t.val / 88 ∧ win0_0.index t (1 : Fin 3) = t.val / 11 % 8 ∧ win0_0.index t (2 : Fin 3) = 0
    ∧ win0_1.index t (0 : Fin 3) = t.val / 88 ∧ win0_1.index t (1 : Fin 3) = 0 ∧ win0_1.index t (2 : Fin 3) = t.val % 11
    ∧ win0_2.index t (0 : Fin 3) = t.val / 88 ∧ win0_2.index t (1 : Fin 3) = 0 ∧ win0_2.index t (2 : Fin 3) = t.val % 11
    ∧ win0_3.index t (0 : Fin 3) = t.val / 88 ∧ win0_3.index t (1 : Fin 3) = t.val % 11 ∧ win0_3.index t (2 : Fin 3) = 0
    ∧ win0_4.index t (0 : Fin 3) = t.val / 88 ∧ win0_4.index t (1 : Fin 3) = t.val / 11 % 8 ∧ win0_4.index t (2 : Fin 3) = 0 :=
  (by decide +kernel : ∀ t : Fin grid0.N, _)

/-- The token block: rows of the point's token tile, of its expert. -/
theorem xblk_apply (c : Dev nD) (t : Fin cfg0.N) (z : Fin 1) (r : Fin 512) (j : Fin 2048) :
    xblk m c t (ix3 z r j) = xarr m c (ix3 (pe t) (rowIx (pq t) r) j) := by
  obtain ⟨e0, e1, e2, -⟩ := idx_facts t
  show V m c main_v0 (((cfg0.win 0).blk t).view.emb (ix3 z r j)) = V m c main_v0 (ix3 (pe t) (rowIx (pq t) r) j)
  refine congrArg (V m c main_v0) ?_
  funext a; apply Fin.ext
  match a with
  | ⟨0, _⟩ => show win0_0.index t (0 : Fin 3) * 1 + 1 * z.val = t.val / 88; have := z.isLt; omega
  | ⟨1, _⟩ => show win0_0.index t (1 : Fin 3) * 512 + 1 * r.val = t.val / 11 % 8 * 512 + r.val; omega
  | ⟨2, _⟩ => show win0_0.index t (2 : Fin 3) * 2048 + 1 * j.val = j.val; omega

/-- The gate block: the hidden tile's columns of the expert's gate weights. -/
theorem gblk_apply (c : Dev nD) (t : Fin cfg0.N) (z : Fin 1) (j : Fin 2048) (k : Fin 128) :
    gblk m c t (ix3 z j k) = garr m c (ix3 (pe t) j (hidIx (ph t) k)) := by
  obtain ⟨-, -, -, e0, e1, e2, -⟩ := idx_facts t
  show V m c main_arg2 (((cfg0.win 1).blk t).view.emb (ix3 z j k)) = V m c main_arg2 (ix3 (pe t) j (hidIx (ph t) k))
  refine congrArg (V m c main_arg2) ?_
  funext a; apply Fin.ext
  match a with
  | ⟨0, _⟩ => show win0_1.index t (0 : Fin 3) * 1 + 1 * z.val = t.val / 88; have := z.isLt; omega
  | ⟨1, _⟩ => show win0_1.index t (1 : Fin 3) * 2048 + 1 * j.val = j.val; omega
  | ⟨2, _⟩ => show win0_1.index t (2 : Fin 3) * 128 + 1 * k.val = t.val % 11 * 128 + k.val; omega

/-- The up block: the same columns of the up weights. -/
theorem ublk_apply (c : Dev nD) (t : Fin cfg0.N) (z : Fin 1) (j : Fin 2048) (k : Fin 128) :
    ublk m c t (ix3 z j k) = uarr m c (ix3 (pe t) j (hidIx (ph t) k)) := by
  obtain ⟨-, -, -, -, -, -, e0, e1, e2, -⟩ := idx_facts t
  show V m c main_arg3 (((cfg0.win 2).blk t).view.emb (ix3 z j k)) = V m c main_arg3 (ix3 (pe t) j (hidIx (ph t) k))
  refine congrArg (V m c main_arg3) ?_
  funext a; apply Fin.ext
  match a with
  | ⟨0, _⟩ => show win0_2.index t (0 : Fin 3) * 1 + 1 * z.val = t.val / 88; have := z.isLt; omega
  | ⟨1, _⟩ => show win0_2.index t (1 : Fin 3) * 2048 + 1 * j.val = j.val; omega
  | ⟨2, _⟩ => show win0_2.index t (2 : Fin 3) * 128 + 1 * k.val = t.val % 11 * 128 + k.val; omega

/-- The down block: the hidden tile's rows of the expert's down weights. -/
theorem dblk_apply (c : Dev nD) (t : Fin cfg0.N) (z : Fin 1) (k : Fin 128) (d : Fin 2048) :
    dblk m c t (ix3 z k d) = darr m c (ix3 (pe t) (hidIx (ph t) k) d) := by
  obtain ⟨-, -, -, -, -, -, -, -, -, e0, e1, e2, -⟩ := idx_facts t
  show V m c main_arg4 (((cfg0.win 3).blk t).view.emb (ix3 z k d)) = V m c main_arg4 (ix3 (pe t) (hidIx (ph t) k) d)
  refine congrArg (V m c main_arg4) ?_
  funext a; apply Fin.ext
  match a with
  | ⟨0, _⟩ => show win0_3.index t (0 : Fin 3) * 1 + 1 * z.val = t.val / 88; have := z.isLt; omega
  | ⟨1, _⟩ => show win0_3.index t (1 : Fin 3) * 128 + 1 * k.val = t.val % 11 * 128 + k.val; omega
  | ⟨2, _⟩ => show win0_3.index t (2 : Fin 3) * 2048 + 1 * d.val = d.val; omega

/-- One point's update of the accumulator tile adds its hidden tile's share of the result, for the rows of its
    token tile. -/
theorem update_apply (c : Dev nD) (t : Fin cfg0.N) (acc : Vec Ideal S512x2048 .f32) (r : Fin 512) (d : Fin 2048) :
    k0_pay2 (F := Ideal) (xblk m c t) (gblk m c t) (ublk m c t) (dblk m c t) acc (ix2 r d)
      = acc (ix2 r d) + tile (xarr m c) (garr m c) (uarr m c) (darr m c) (pe t) (rowIx (pq t) r) (ph t) d := by
  refine (Payload.pay2_apply _ _ _ _ acc r d).trans ?_
  refine congrArg (acc (ix2 r d) + ·) ?_
  unfold tile hiddenAct proj
  simp only [xblk_apply m c t, gblk_apply m c t, ublk_apply m c t, dblk_apply m c t]

end Cert.KernelIdeal.Tiles

end
-- ==== Proof.Pieces.lean ====
/-
  What each control case of the body leaves behind, as the body's arithmetic of what it loaded.

  The accumulator tile is stored whole. At the first hidden tile it is reset to zero and then updated, so it ends at
  the update of zero; at every later tile it ends at the update of what the tile before left. At the last hidden tile
  the output block is stored whole too: the updated accumulator with a leading unit axis.
-/
import proofs.«146920_j5669356830747_1_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zero2 : (![0, 0] : Fin S512x2048.rank → ℕ) = fun _ => 0 := by
  funext a; match a with | ⟨0, _⟩ => rfl | ⟨1, _⟩ => rfl
theorem zero3 : (![0, 0, 0] : Fin S1x512x2048.rank → ℕ) = fun _ => 0 := by
  funext a; match a with | ⟨0, _⟩ => rfl | ⟨1, _⟩ => rfl | ⟨2, _⟩ => rfl
theorem zero3a : (![0, 0, 0] : Fin S1x2048x128.rank → ℕ) = fun _ => 0 := by
  funext a; match a with | ⟨0, _⟩ => rfl | ⟨1, _⟩ => rfl | ⟨2, _⟩ => rfl
theorem zero3b : (![0, 0, 0] : Fin S1x128x2048.rank → ℕ) = fun _ => 0 := by
  funext a; match a with | ⟨0, _⟩ => rfl | ⟨1, _⟩ => rfl | ⟨2, _⟩ => rfl

/-- First hidden tile: the accumulator ends at the update of the zero tile. -/
theorem scratch_first (c : Dev nD) (i : grid0.Coords) (arg3 : Memref sig .tc .vmem S1x512x2048 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i) (x0 : Vec F S1x512x2048 .f32) (x1 : Vec F S1x2048x128 .f32) (x2 : Vec F S1x2048x128 .f32) (x3 : Vec F S1x128x2048 .f32) :
    sout0_A_0 (F := F) c i arg3 harg3 arg4 harg4 arg5 harg5 arg6 harg6 arg7 harg7 arg8 harg8 hc0 hc1 x0 x1 x2 x3 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A; dsimp only; sl_unfold_words
  rw [View.canon_cons_unit_zero (S := S512x2048) zero2]
  simp only [View.readAt_eq_ld, harg3.read_unread, harg4.read_unread, harg5.read_unread, harg6.read_unread, harg7.read_unread, harg8.read_unread, View.ld_unit_zero (S := S1x512x2048) zero3, View.ld_unit_zero (S := S1x2048x128) zero3a, View.ld_unit_zero (S := S1x128x2048) zero3b, View.ld_unit_zero (S := S512x2048) zero2, View.readCov_unit_zero (S := S512x2048) _ zero2]

/-- A middle hidden tile: the accumulator ends at the update of what the tile before left. -/
theorem scratch_middle (c : Dev nD) (i : grid0.Coords) (arg3 : Memref sig .tc .vmem S1x512x2048 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i) (x0 : Vec F S1x512x2048 .f32) (x1 : Vec F S1x2048x128 .f32) (x2 : Vec F S1x2048x128 .f32) (x3 : Vec F S1x128x2048 .f32) (xs0 : Vec F S512x2048 .f32) :
    sout0_B_0 (F := F) c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B; dsimp only; sl_unfold_words
  rw [View.canon_unit_zero (S := S512x2048) zero2]
  simp only [View.readAt_eq_ld, harg3.read_unread, harg4.read_unread, harg5.read_unread, harg6.read_unread, harg7.read_unread, harg8.read_unread, View.ld_unit_zero (S := S1x512x2048) zero3, View.ld_unit_zero (S := S1x2048x128) zero3a, View.ld_unit_zero (S := S1x128x2048) zero3b, View.ld_unit_zero (S := S512x2048) zero2, View.readCov_unit_zero (S := S512x2048) _ zero2]

/-- The last hidden tile: the accumulator is updated the same way. -/
theorem scratch_last (c : Dev nD) (i : grid0.Coords) (arg3 : Memref sig .tc .vmem S1x512x2048 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i) (x0 : Vec F S1x512x2048 .f32) (x1 : Vec F S1x2048x128 .f32) (x2 : Vec F S1x2048x128 .f32) (x3 : Vec F S1x128x2048 .f32) (xs0 : Vec F S512x2048 .f32) :
    sout0_C_0 (F := F) c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C; dsimp only; sl_unfold_words
  rw [View.canon_unit_zero (S := S512x2048) zero2]
  simp only [View.readAt_eq_ld, harg3.read_unread, harg4.read_unread, harg5.read_unread, harg6.read_unread, harg7.read_unread, harg8.read_unread, View.ld_unit_zero (S := S1x512x2048) zero3, View.ld_unit_zero (S := S1x2048x128) zero3a, View.ld_unit_zero (S := S1x128x2048) zero3b, View.ld_unit_zero (S := S512x2048) zero2, View.readCov_unit_zero (S := S512x2048) _ zero2]

/-- The last hidden tile: the output block is the updated accumulator under a leading unit axis. -/
theorem block_last (c : Dev nD) (i : grid0.Coords) (arg3 : Memref sig .tc .vmem S1x512x2048 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i) (x0 : Vec F S1x512x2048 .f32) (x1 : Vec F S1x2048x128 .f32) (x2 : Vec F S1x2048x128 .f32) (x3 : Vec F S1x128x2048 .f32) (xs0 : Vec F S512x2048 .f32) :
    out0_C_4 (F := F) c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C; dsimp only; sl_unfold_words
  rw [View.canon_unit_zero (S := S1x512x2048) zero3]
  simp only [View.readAt_eq_ld, harg3.read_unread, harg4.read_unread, harg5.read_unread, harg6.read_unread, harg7.read_unread, harg8.read_unread, View.ld_unit_zero (S := S1x512x2048) zero3, View.ld_unit_zero (S := S1x2048x128) zero3a, View.ld_unit_zero (S := S1x128x2048) zero3b, View.ld_unit_zero (S := S512x2048) zero2, View.readCov_unit_zero (S := S512x2048) _ zero2]

end Cert.KernelIdeal.Gen

end
-- ==== Proof.Accum.lean ====
/-
  The accumulator tile over a run of hidden tiles.

  For a fixed expert and token tile the eleven hidden tiles are consecutive grid points `11·b … 11·b + 10`. The first
  resets the accumulator and adds its share; each later one adds its share to what the one before left. So after the
  point at offset `j` the accumulator holds the sum of the shares of hidden tiles `0 … j`, and after the last point the
  sum over all eleven: the run's fold, unrolled at an index. The output block written at the last point is that
  accumulator under a leading unit axis.
-/
import proofs.«146920_j5669356830747_1_alg».proof.Proof.Blocks
import proofs.«146920_j5669356830747_1_alg».proof.Proof.Pieces
import Idealize.ShloMosaic.Lib.Pipeline.Value

set_option maxRecDepth 16384

noncomputable section

open scoped BigOperators

namespace Cert.KernelIdeal.Tiles

open Idealize.ShloMosaic Idealize.ShloMosaic.TcCoe Idealize.ShloMosaic.ValueIdx
open Idealize.SL Idealize.SL.Sem
open Cert.KernelIdeal Cert.KernelIdeal.Gen Cert.GroupedSwiGLU

variable (m : (ℓ : Loc nD τ sig) → Buf (Elt Ideal) ℓ)

/-- What the accumulator tile holds after point `n`. -/
abbrev accAfter (c : Dev nD) (n : ℕ) (hn : n < cfg0.N) : Vec Ideal S512x2048 .f32 := (outsAt0 m c n hn).2

/-- One point's update, as a function of the tile it starts from. -/
abbrev step (c : Dev nD) (n : ℕ) (hn : n < cfg0.N) (acc : Vec Ideal S512x2048 .f32) : Vec Ideal S512x2048 .f32 :=
  k0_pay2 (F := Ideal) (xblk m c ⟨n, hn⟩) (gblk m c ⟨n, hn⟩) (ublk m c ⟨n, hn⟩) (dblk m c ⟨n, hn⟩) acc

/-- At a first hidden tile the accumulator is the update of the zero tile. -/
theorem acc_first (c : Dev nD) (t : Fin cfg0.N) (h0 : t.val % 11 = 0) :
    accAfter m c t.val t.isLt = step m c t.val t.isLt (k0_pay1 (F := Ideal)) := by
  have h1 : ¬t.val % 11 = 10 := by omega
  show (outsAt0 m c t.val t.isLt).2 = _
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At a later hidden tile it is the update of what the point before left. -/
theorem acc_later (c : Dev nD) (t : Fin cfg0.N) (h0 : ¬t.val % 11 = 0) :
    accAfter m c t.val t.isLt
      = step m c t.val t.isLt (accAfter m c (t.val - 1) (Nat.lt_of_le_of_lt (Nat.sub_le _ _) t.isLt)) := by
  show (outsAt0 m c t.val t.isLt).2 = _
  by_cases h1 : t.val % 11 = 10
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At a last hidden tile the output block is the accumulator, as that point leaves it, under a unit axis. -/
theorem out_last (c : Dev nD) (t : Fin cfg0.N) (h10 : t.val % 11 = 10) :
    (outsAt0 m c t.val t.isLt).1 = k0_pay3 (F := Ideal) (accAfter m c t.val t.isLt) := by
  have h0 : ¬t.val % 11 = 0 := by omega
  rw [show accAfter m c t.val t.isLt = _ from acc_later m c t h0]
  rw [outsAt0_C m c t h0 h10]
  dsimp only
  exact block_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h10) (iblk m c 0 t) (iblk m c 1 t) (iblk m c 2 t) (iblk m c 3 t) (outsAt0 m c (t.val - 1) (Nat.lt_of_le_of_lt (Nat.sub_le _ _) t.isLt)).2

/-- Point `n`'s share of the result at an index of the tile (zero past the grid, where it is never used). -/
def share (c : Dev nD) (n : ℕ) (i : S512x2048.Idx) : EReal :=
  if hn : n < cfg0.N then
    tile (xarr m c) (garr m c) (uarr m c) (darr m c) (pe ⟨n, hn⟩) (rowIx (pq ⟨n, hn⟩) (i 0)) (ph ⟨n, hn⟩) (i 1)
  else 0

/-- A point's update adds its share. -/
theorem step_apply (c : Dev nD) (n : ℕ) (hn : n < cfg0.N) (acc : Vec Ideal S512x2048 .f32) (i : S512x2048.Idx) :
    step m c n hn acc i = acc i + share m c n i := by
  obtain ⟨r, d, rfl⟩ : ∃ (r : Fin 512) (d : Fin 2048), i = ix2 r d := ⟨i 0, i 1, eq_ix2 i⟩
  rw [share, dif_pos hn]
  exact update_apply m c ⟨n, hn⟩ acc r d

/-- After the point at offset `t % 11` of its run the accumulator holds the shares of the run's points so far. -/
theorem acc_at (c : Dev nD) (t : Fin cfg0.N) (i : S512x2048.Idx) :
    accAfter m c t.val t.isLt i = ∑ s ∈ Finset.range (t.val % 11 + 1), share m c (11 * (t.val / 11) + s) i := by
  have hb : 11 * (t.val / 11) + t.val % 11 < cfg0.N := by rw [Nat.div_add_mod]; exact t.isLt
  have e := Pipeline.eq_accAt_of_mod (N := cfg0.N) (fun n hn => accAfter m c n hn) 11
    (fun n hn => step m c n hn (k0_pay1 (F := Ideal))) (fun n hn acc => step m c n hn acc)
    (fun n hn h0 => acc_first m c ⟨n, hn⟩ h0) (fun n hn h0 => acc_later m c ⟨n + 1, hn⟩ h0)
    (by decide) t.val t.isLt hb
  refine (congrFun e i).trans ?_
  refine (Pipeline.accAt_add_apply _ _ (fun _ => (0 : EReal)) (share m c) (11 * (t.val / 11)) 10
    (fun h j => (step_apply m c _ h _ j).trans (congrArg (· + share m c _ j) (Payload.pay1_apply j)))
    (fun n h acc j _ _ => step_apply m c n h acc j) (t.val % 11) (by omega) hb i).trans (zero_add _)

/-- After a run's last point: the sum of the eleven hidden tiles' shares, for the point's expert and token rows. -/
theorem acc_flush (c : Dev nD) (t : Fin cfg0.N) (h10 : t.val % 11 = 10) (r : Fin 512) (d : Fin 2048) :
    accAfter m c t.val t.isLt (ix2 r d)
      = ∑ s : Fin 11, tile (xarr m c) (garr m c) (uarr m c) (darr m c) (pe t) (rowIx (pq t) r) s d := by
  rw [acc_at m c t (ix2 r d), h10]
  show ∑ s ∈ Finset.range 11, _ = _
  rw [Finset.sum_range]
  refine Finset.sum_congr rfl fun s _ => ?_
  have hs := s.isLt
  have ht := lt704 t
  have hn : 11 * (t.val / 11) + s.val < cfg0.N := lt_of_lt_of_eq (by omega : 11 * (t.val / 11) + s.val < 704) N_0.symm
  rw [share, dif_pos hn]
  have e1 : pe ⟨11 * (t.val / 11) + s.val, hn⟩ = pe t :=
    Fin.ext (by show (11 * (t.val / 11) + s.val) / 88 = t.val / 88; omega)
  have e2 : pq ⟨11 * (t.val / 11) + s.val, hn⟩ = pq t :=
    Fin.ext (by show (11 * (t.val / 11) + s.val) / 11 % 8 = t.val / 11 % 8; omega)
  have e3 : ph ⟨11 * (t.val / 11) + s.val, hn⟩ = s :=
    Fin.ext (by show (11 * (t.val / 11) + s.val) % 11 = s.val; omega)
  rw [e1, e2, e3]

end Cert.KernelIdeal.Tiles

end
-- ==== Proof.KernelValue.lean ====
/-
  The kernel program's result array.

  The output's blocks are one per expert and token tile, each written back once, by the last hidden tile's point of its
  run; together they tile the `[8, 4096, 2048]` array. The block written back is the accumulator, which holds the sum
  of the eleven hidden tiles' shares, and that sum is the result's sum over all 1408 hidden units. So after the region
  the array is `out` of the arrays the region found; the reshape before the region regroups the launch tokens by expert
  and the reshape after it flattens the result.
-/
import proofs.«146920_j5669356830747_1_alg».proof.Proof.Accum
import Idealize.ShloMosaic.Lib.Pipeline.Value
import Idealize.ShloMosaic.Lib.StableHlo.Run

set_option maxRecDepth 16384

noncomputable section

open scoped BigOperators

namespace Cert.KernelIdeal.Tiles

open Idealize.ShloMosaic Idealize.ShloMosaic.TcCoe Idealize.ShloMosaic.ValueIdx Idealize.ShloMosaic.StableHlo
open Idealize.SL Idealize.SL.Sem
open Cert.KernelIdeal Cert.KernelIdeal.Gen Cert.GroupedSwiGLU

variable (m : (ℓ : Loc nD τ sig) → Buf (Elt Ideal) ℓ) (ρ : Dev nD → PrngReg)

/-- The output block a run's last point stores, read at a block index `y`, is `out` at the array index `i` that `y`
    names: same expert, row `512·q + y₁`, same channel. -/
theorem block_value (c : Dev nD) (t : Fin cfg0.N) (h10 : t.val % 11 = 10) (y : S1x512x2048.Idx) (i : S8x4096x2048.Idx)
    (h0 : (i 0).val = t.val / 88) (h1 : (i 1).val = t.val / 11 % 8 * 512 + (y 1).val) (h2 : (i 2).val = (y 2).val) :
    k0_pay3 (F := Ideal) (accAfter m c t.val t.isLt) y = out (xarr m c) (garr m c) (uarr m c) (darr m c) i := by
  obtain ⟨z, r, d, rfl⟩ : ∃ (z : Fin 1) (r : Fin 512) (d : Fin 2048), y = ix3 z r d := ⟨y 0, y 1, y 2, eq_ix3 y⟩
  have ei : i = ix3 (pe t) (rowIx (pq t) r) d := by
    funext a; apply Fin.ext
    match a with
    | ⟨0, _⟩ => exact h0
    | ⟨1, _⟩ => exact h1
    | ⟨2, _⟩ => exact h2
  subst ei
  rw [Payload.pay3_apply, acc_flush m c t h10 r d]
  exact (outAt_eq_sum_tiles _ _ _ _ _ _ _).symm

/-- What a flushing point writes back is its block of `out`. -/
theorem flushed_eq (c : Dev nD) (t : Fin cfg0.N) (hf : (cfg0.win 4).flush t = true) :
    (dats m 0 c).flushed 4 t
      = ((cfg0.win 4).blk t).view.read (Elt Ideal) (out (xarr m c) (garr m c) (uarr m c) (darr m c)) := by
  have h10 : t.val % 11 = 10 := (flush0_4 t).mp hf
  show (cfg0.win 4).cut (grid0.coords t) ((dats m 0 c).after 4 t) = _
  rw [after0_4, out_last m c t h10]
  obtain ⟨-, -, -, -, -, -, -, -, -, -, -, -, e0, e1, e2⟩ := idx_facts t
  funext y
  show k0_pay3 (F := Ideal) (accAfter m c t.val t.isLt) y
    = out (xarr m c) (garr m c) (uarr m c) (darr m c) (((cfg0.win 4).blk t).view.emb y)
  refine block_value m c t h10 y _ ?_ ?_ ?_
  · show win0_4.index t (0 : Fin 3) * 1 + 1 * (y 0).val = t.val / 88
    have : (y 0).val < 1 := (y 0).isLt
    omega
  · show win0_4.index t (1 : Fin 3) * 512 + 1 * (y 1).val = t.val / 11 % 8 * 512 + (y 1).val
    omega
  · show win0_4.index t (2 : Fin 3) * 2048 + 1 * (y 2).val = (y 2).val
    omega

/-- An index of the result array lies in a point's output block iff each coordinate lies in the block's range. -/
theorem mem_blk (t : Fin cfg0.N) (i : S8x4096x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v1).slice (win0_4.rect t)).set ↔ _
  rw [View.set_slice_whole, Rect.mem_set_unit]
  exact Iff.rfl

/-- Every index of the result array is in the block some run's last point writes back: expert `i₀`, token tile
    `i₁ / 512`. -/
theorem covered (i : S8x4096x2048.Idx) :
    ∃ t : Fin cfg0.N, (cfg0.win 4).flush t = true ∧ i ∈ ((cfg0.win 4).blk t).view.set := by
  have b0 : (i 0).val < 8 := (i 0).isLt
  have b1 : (i 1).val < 4096 := (i 1).isLt
  have b2 : (i 2).val < 2048 := (i 2).isLt
  obtain ⟨n, hn⟩ : ∃ n, n = (i 0).val * 88 + (i 1).val / 512 * 11 + 10 := ⟨_, rfl⟩
  have hN : n < cfg0.N := lt_of_lt_of_eq (by omega : n < 704) N_0.symm
  refine ⟨⟨n, hN⟩, (flush0_4 _).mpr (by show n % 11 = 10; omega), ?_⟩
  obtain ⟨-, -, -, -, -, -, -, -, -, -, -, -, e0, e1, e2⟩ := idx_facts ⟨n, hN⟩
  have e0' : win0_4.index ⟨n, hN⟩ (0 : Fin 3) = n / 88 := e0
  have e1' : win0_4.index ⟨n, hN⟩ (1 : Fin 3) = n / 11 % 8 := e1
  rw [mem_blk]
  intro a
  match a with
  | ⟨0, _⟩ =>
    show win0_4.index ⟨n, hN⟩ (0 : Fin 3) * 1 ≤ (i 0).val ∧ (i 0).val < win0_4.index ⟨n, hN⟩ (0 : Fin 3) * 1 + 1
    omega
  | ⟨1, _⟩ =>
    show win0_4.index ⟨n, hN⟩ (1 : Fin 3) * 512 ≤ (i 1).val ∧ (i 1).val < win0_4.index ⟨n, hN⟩ (1 : Fin 3) * 512 + 512
    omega
  | ⟨2, _⟩ =>
    show win0_4.index ⟨n, hN⟩ (2 : Fin 3) * 2048 ≤ (i 2).val ∧ (i 2).val < win0_4.index ⟨n, hN⟩ (2 : Fin 3) * 2048 + 2048
    omega

/-- After the region the result array holds `out` of the arrays the region found. -/
theorem final (c : Dev nD) :
    (dats m 0 c).arrAt 4 cfg0.N = out (xarr m c) (garr m c) (uarr m c) (darr m c) :=
  (dats m 0 c).arrAt_eq_of_cover 4 _ (fun t hf => flushed_eq m c t hf) covered

/-- The tokens the region finds are the launch tokens regrouped by expert. -/
theorem xarr_eq (c : Dev nD) :
    xarr m c = shapeCast S8x4096x2048 (m ((c : Thread nD τ).loc main_arg0)) shapeCasts_S32768x2048_S8x4096x2048 := by
  show StableHlo.after hostOps0 (fun b => m (c, b)) (Proc.devRef .tc main_v0) = _
  after_results
  rfl

/-- The weights the region finds are the launch weights. -/
theorem garr_eq (c : Dev nD) : garr m c = m ((c : Thread nD τ).loc main_arg2) := V_main_arg2 m c
theorem uarr_eq (c : Dev nD) : uarr m c = m ((c : Thread nD τ).loc main_arg3) := V_main_arg3 m c
theorem darr_eq (c : Dev nD) : darr m c = m ((c : Thread nD τ).loc main_arg4) := V_main_arg4 m c

/-- The program's result as a function of its launch arrays: `out` of the regrouped tokens, flattened again. -/
abbrev result (c : Dev nD) : Vec Ideal S32768x2048 .f32 :=
  shapeCast S32768x2048
    (out (shapeCast S8x4096x2048 (m ((c : Thread nD τ).loc main_arg0)) shapeCasts_S32768x2048_S8x4096x2048)
      (m ((c : Thread nD τ).loc main_arg2)) (m ((c : Thread nD τ).loc main_arg3)) (m ((c : Thread nD τ).loc main_arg4)))
    shapeCasts_S8x4096x2048_S32768x2048

/-- The reshape after the region flattens the result array. -/
theorem tail_value (c : Dev nD) :
    Pipeline.afterTail₀ cfgs (dats m) 0 (V0 m) [hostOps1] c main_v2 = result m c := by
  have hw : Pipeline.withArrays (cfgs 0).spec c (V0 m c) (fun w => (dats m 0 c).arrAt w (cfgs 0).N)
      (Proc.devRef .tc main_v1) = out (xarr m c) (garr m c) (uarr m c) (darr m c) :=
    (Pipeline.withArrays_arr spec0 launch0.win.arr_inj c (V0 m c) (fun w => (dats m 0 c).arrAt w (cfgs 0).N) 4).trans
      (final m c)
  unfold Pipeline.afterTail₀
  show StableHlo.after hostOps1 _ (Proc.devRef .tc main_v2) = _
  after_results
  rw [hw, xarr_eq m c, garr_eq m c, uarr_eq m c, darr_eq m c]
  rfl

/-- Every weakly fair execution of the idealized kernel program ends with the result buffer at `result` and the
    arguments as launched. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Tiles

end
-- ==== Proof.RefImports.lean ====
/-
  The reference's run and its operations read at an index, gathered under one import.
-/
import proofs.«146920_j5669356830747_1_alg».proof.Proof.Gen.ReferenceIdeal.Run
import proofs.«146920_j5669356830747_1_alg».proof.Proof.Gen.ReferenceIdeal.Read
-- ==== Proof.RefValue.lean ====
/-
  The reference computes the same function.

  Its three batched contractions are sums over the model width (twice) and over the hidden width; its `silu` is spelt
  `g · (1 / (1 + exp(-g)))`, which is `swish g`. Read index by index, the array before the final reshape is `out` of the
  regrouped tokens and the three weights.
-/
import proofs.«146920_j5669356830747_1_alg».proof.Proof.RefImports
import proofs.«146920_j5669356830747_1_alg».proof.Proof.Spec

noncomputable section

open scoped BigOperators

namespace Cert.ReferenceIdeal.RefValue

open Idealize.ShloMosaic Idealize.ShloMosaic.ValueIdx
open Cert.ReferenceIdeal Cert.ReferenceIdeal.Read Cert.GroupedSwiGLU

/-- A gate or up contraction of the reference at `(e, t, k)`. -/
theorem gate_apply (x0 : (⟨S32768x2048, .f32⟩ : BufTy).Contents (Elt Ideal)) (x2 : (⟨S8x2048x1408, .f32⟩ : BufTy).Contents (Elt Ideal))
    (e : Fin 8) (t : Fin 4096) (k : Fin 1408) :
    val_main_v1 (F := Ideal) x0 x2 (ix3 e t k) = proj (val_main_v0 (F := Ideal) x0) x2 e t k := by
  rw [val_main_v1_apply]
  unfold proj
  refine Finset.sum_congr rfl fun j _ => ?_
  have el : lidx_main_v1 (ix3 e t k) j = ix3 e t j := funext fun a => by
    match a with
    | ⟨0, _⟩ => rfl
    | ⟨1, _⟩ => rfl
    | ⟨2, _⟩ => rfl
  have er : ridx_main_v1 (ix3 e t k) j = ix3 e j k := funext fun a => by
    match a with
    | ⟨0, _⟩ => rfl
    | ⟨1, _⟩ => rfl
    | ⟨2, _⟩ => rfl
  rw [el, er]

theorem up_apply (x0 : (⟨S32768x2048, .f32⟩ : BufTy).Contents (Elt Ideal)) (x3 : (⟨S8x2048x1408, .f32⟩ : BufTy).Contents (Elt Ideal))
    (e : Fin 8) (t : Fin 4096) (k : Fin 1408) :
    val_main_v3 (F := Ideal) x0 x3 (ix3 e t k) = proj (val_main_v0 (F := Ideal) x0) x3 e t k :=
  gate_apply x0 x3 e t k

/-- The reference's hidden activation at `(e, t, k)`. -/
theorem hidden_apply (x0 : (⟨S32768x2048, .f32⟩ : BufTy).Contents (Elt Ideal)) (x2 x3 : (⟨S8x2048x1408, .f32⟩ : BufTy).Contents (Elt Ideal))
    (e : Fin 8) (t : Fin 4096) (k : Fin 1408) :
    val_main_v4 (F := Ideal) x0 x2 x3 (ix3 e t k) = hiddenAct (val_main_v0 (F := Ideal) x0) x2 x3 e t k := by
  rw [val_main_v4_apply, val_main_v2_apply, val_main_call0_v5_apply, val_main_call0_v4_apply, val_main_call0_cst_0_apply,
    val_main_call0_v3_apply, val_main_call0_v2_apply, val_main_call0_cst_apply, val_main_call0_v1_apply,
    val_main_call0_v0_apply, up_apply, gate_apply]
  simp only [Ideal.mulf_def, Ideal.hostDivf_def, Ideal.addf_def, Ideal.hostUnary_exp_def, Ideal.hostNegf_def, Ideal.negf_def,
    Ideal.ofBits_def]
  rw [swish_eq]
  rfl

/-- The array the reference reshapes at the end is `out` of the regrouped tokens. -/
theorem before_reshape (x0 : (⟨S32768x2048, .f32⟩ : BufTy).Contents (Elt Ideal)) (x2 x3 : (⟨S8x2048x1408, .f32⟩ : BufTy).Contents (Elt Ideal))
    (x4 : (⟨S8x1408x2048, .f32⟩ : BufTy).Contents (Elt Ideal)) :
    val_main_v5 (F := Ideal) x0 x2 x3 x4 = out (val_main_v0 (F := Ideal) x0) x2 x3 x4 := by
  funext i
  obtain ⟨e, t, d, rfl⟩ : ∃ (e : Fin 8) (t : Fin 4096) (d : Fin 2048), i = ix3 e t d := ⟨i 0, i 1, i 2, eq_ix3 i⟩
  rw [val_main_v5_apply]
  show _ = outAt (val_main_v0 (F := Ideal) x0) x2 x3 x4 e t d
  unfold outAt
  refine Finset.sum_congr rfl fun k _ => ?_
  have el : lidx_main_v5 (ix3 e t d) k = ix3 e t k := funext fun a => by
    match a with
    | ⟨0, _⟩ => rfl
    | ⟨1, _⟩ => rfl
    | ⟨2, _⟩ => rfl
  have er : ridx_main_v5 (ix3 e t d) k = ix3 e k d := funext fun a => by
    match a with
    | ⟨0, _⟩ => rfl
    | ⟨1, _⟩ => rfl
    | ⟨2, _⟩ => rfl
  rw [el, er, hidden_apply]

end Cert.ReferenceIdeal.RefValue

end
-- ==== Proof.lean ====
/-
  A grouped SwiGLU feed-forward, tiled, against its batched reference.

  Eight experts each own 4096 of the 32768 tokens. For a token `x` of expert `e` the result is
  `(swish(x·Wgate[e]) ⊙ (x·Wup[e])) · Wdown[e]`, with `swish g = g · 1/(1 + exp(-g))`. The kernel walks a grid of
  8 experts × 8 token tiles × 11 hidden tiles: at each point it forms the gate and up projections of 512 tokens onto 128
  hidden units, the activation, and that hidden tile's product with the down weights, which it adds into an accumulator
  tile that the first hidden tile resets and the last one writes out. The reference computes the three contractions whole.

  On the extended reals the narrowing to bfloat16 is the identity, the kernel's logistic is the reference's
  `1/(1 + exp(-g))`, and a sum over the 1408 hidden units is the sum over the eleven tiles of each tile's sum, by
  commutativity and associativity of addition alone; so the two results agree element by element for all inputs, and the
  finiteness precondition is never opened. The idealization rewrote nothing, so its side condition is trivial.

  The kernel side is read off the generated frame run: each control case's stores as the body's arithmetic (Pieces), one
  point's update at an index (Payload, Blocks), the accumulator over a run of hidden tiles as a fold (Accum), the blocks
  written back tiling the array and the reshapes around the region (KernelValue). The reference side reads the generated
  run one operation at a time (RefValue). Both are stated over one function, `GroupedSwiGLU.out` (Spec).
-/
import proofs.«146920_j5669356830747_1_alg».proof.Defs
import proofs.«146920_j5669356830747_1_alg».proof.Proof.Gen.Kernel
import proofs.«146920_j5669356830747_1_alg».proof.Proof.Gen.Kernel.Skeleton
import proofs.«146920_j5669356830747_1_alg».proof.Proof.Gen.Kernel.Launch
import proofs.«146920_j5669356830747_1_alg».proof.Proof.Gen.Kernel.Points
import proofs.«146920_j5669356830747_1_alg».proof.Proof.Gen.Kernel.Frame
import proofs.«146920_j5669356830747_1_alg».proof.Proof.Gen.KernelIdeal
import proofs.«146920_j5669356830747_1_alg».proof.Proof.Gen.KernelIdeal.Skeleton
import proofs.«146920_j5669356830747_1_alg».proof.Proof.Gen.KernelIdeal.Launch
import proofs.«146920_j5669356830747_1_alg».proof.Proof.Gen.KernelIdeal.Points
import proofs.«146920_j5669356830747_1_alg».proof.Proof.Gen.KernelIdeal.Frame
import proofs.«146920_j5669356830747_1_alg».proof.Proof.Gen.ReferenceIdeal
import proofs.«146920_j5669356830747_1_alg».proof.Proof.Gen.Pre_finite_inputs
import proofs.«146920_j5669356830747_1_alg».proof.Proof.KernelValue
import proofs.«146920_j5669356830747_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at the same array: the kernel's
    at `out` of the regrouped tokens, flattened; the reference's at its last contraction, flattened, which is `out`. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2.1, (hagree c).2.2.2.2]
  exact congrArg (fun v => shapeCast _ v _) (Cert.ReferenceIdeal.RefValue.before_reshape _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
